-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S2x26000000 : Shape := ⟨2, ![2, 26000000]⟩
abbrev S26000000x1 : Shape := ⟨2, ![26000000, 1]⟩
abbrev S1x8 : Shape := ⟨2, ![1, 8]⟩
abbrev S1000000 : Shape := ⟨1, ![1000000]⟩
abbrev S6x16 : Shape := ⟨2, ![6, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S26000000x1 : S_.BroadcastsInDim S26000000x1 (![] : Fin 0 → Fin S26000000x1.rank)
  reducesTo_S26000000x1_S_d0_1 : S26000000x1.ReducesTo [0, 1] S_
  bcast_S_S1x8 : S_.BroadcastsInDim S1x8 (![] : Fin 0 → Fin S1x8.rank)
  reducesTo_S1x8_S_d0_1 : S1x8.ReducesTo [0, 1] S_
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S16x3 .f32) (main_arg10 : FVec F S3 .f32) (main_v33 : IVec S_ 1) : IVec S_ 1 :=
  let main_v34 : FVec F S16x3 .f32 := Host.absf main_arg9
  let main_cst_12 : FVec F S_ .f32 := constant S_ .f32 0x7F800000#32
  let main_v35 : FVec F S16x3 .f32 := broadcastInDim S16x3 ![] bcast_S_S16x3 main_cst_12
  let main_v36 : IVec S16x3 1 := cmpf .olt main_v34 main_v35
  let main_c_13 : IVec S_ 1 := constantI S_ 1 1#1
  let main_v37 : IVec S_ 1 := (fun x v => Host.reduce IntOp.andi x v reducesTo_S16x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg6 : FVec F S16 .f32) (main_arg7 : FVec F S16x16 .f32) (main_arg8 : FVec F S16 .f32) (main_arg9 : FVec F S16x3 .f32) (main_arg10 : FVec F S3 .f32) (main_v13 : IVec S_ 1) (main_v16 : IVec S6x16 1) : IVec S_ 1 :=
  let main_c_5 : IVec S_ 1 := constantI S_ 1 1#1
  let main_v17 : IVec S_ 1 := (fun x v => Host.reduce IntOp.andi x v reducesTo_S6x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg7
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_v33

def fn {F : FTy → Type} [FloatOps F] (main_arg0 : FVec F S1000000x3 .f32) (main_arg1 : IVec S2x26000000 32) (main_arg2 : FVec F S26000000x1 .f32) (main_arg3 : FVec F S1x8 .f32) (main_arg4 : IVec S1000000 32) (main_arg5 : FVec F S6x16 .f32) (main_arg6 : FVec F S16 .f32) (main_arg7 : FVec F S16x16 .f32) (main_arg8 : FVec F S16 .f32) (main_arg9 : FVec F S16x3 .f32) (main_arg10 : FVec F S3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S26000000x1 .f32 := Host.absf main_arg2
  let main_cst_0 : FVec F S_ .f32 := constant S_ .f32 0x7F800000#32
  let main_v5 : FVec F S26000000x1 .f32 := broadcastInDim S26000000x1 ![] bcast_S_S26000000x1 main_cst_0
  let main_v6 : IVec S26000000x1 1 := cmpf .olt main_v4 main_v5
  let main_c_1 : IVec S_ 1 := constantI S_ 1 1#1
  let main_v7 : IVec S_ 1 := (fun x v => Host.reduce IntOp.andi x v reducesTo_S26000000x1_S_d0_1 h_S_) main_v6 main_c_1
  let main_v8 : IVec S_ 1 := andi main_v3 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S6x16 .f32 := Host.absf main_arg5
  let main_cst_4 : FVec F S_ .f32 := constant S_ .f32 0x7F800000#32
  let main_v15 : FVec F S6x16 .f32 := broadcastInDim S6x16 ![] bcast_S_S6x16 main_cst_4
  let main_v16 : IVec S6x16 1 := cmpf .olt main_v14 main_v15
  fn_part1 (F := F) main_arg6 main_arg7 main_arg8 main_arg9 main_arg10 main_v13 main_v16
-- ==== Kernel.lean ====
abbrev S1000000x3 : Shape := ⟨2, ![1000000, 3]⟩
abbrev S2x26000000 : Shape := ⟨2, ![2, 26000000]⟩
abbrev S26000000x1 : Shape := ⟨2, ![26000000, 1]⟩
abbrev S1x8 : Shape := ⟨2, ![1, 8]⟩
abbrev S1000000 : Shape := ⟨1, ![1000000]⟩
abbrev S6x16 : Shape := ⟨2, ![6, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S1x26000000 : Shape := ⟨2, ![1, 26000000]⟩
abbrev S26000000 : Shape := ⟨1, ![26000000]⟩
abbrev S_ : Shape := ⟨0, ![]⟩
abbrev S26000000x3 : Shape := ⟨2, ![26000000, 3]⟩
abbrev S3x1000000 : Shape := ⟨2, ![3, 1000000]⟩
abbrev S3x1007616 : Shape := ⟨2, ![3, 1007616]⟩
abbrev S16x6 : Shape := ⟨2, ![16, 6]⟩
abbrev S3x16 : Shape := ⟨2, ![3, 16]⟩
abbrev S16x1 : Shape := ⟨2, ![16, 1]⟩
abbrev S3x1 : Shape := ⟨2, ![3, 1]⟩
abbrev S3x8192 : Shape := ⟨2, ![3, 8192]⟩
abbrev S6x8192 : Shape := ⟨2, ![6, 8192]⟩
abbrev S16x8192 : Shape := ⟨2, ![16, 8192]⟩

abbrev nBuf : Space → Nat
  | .hbm => 45
  | .vmem => 12
  | .smem => 0
  | _ => 0

abbrev bufTy : (tb : Table) → Fin (tcTables nBuf tb) → BufTy
  | .hbm, ⟨0, _⟩ => ⟨S1000000x3, .f32⟩
  | .hbm, ⟨1, _⟩ => ⟨S2x26000000, .i32⟩
  | .hbm, ⟨2, _⟩ => ⟨S26000000x1, .f32⟩
  | .hbm, ⟨3, _⟩ => ⟨S1x8, .f32⟩
  | .hbm, ⟨4, _⟩ => ⟨S1000000, .i32⟩
  | .hbm, ⟨5, _⟩ => ⟨S6x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x3, .f32⟩
  | .hbm, ⟨10, _⟩ => ⟨S3, .f32⟩
  | .hbm, ⟨11, _⟩ => ⟨S1x26000000, .i32⟩
  | .hbm, ⟨12, _⟩ => ⟨S26000000, .i32⟩
  | .hbm, ⟨13, _⟩ => ⟨S1x26000000, .i32⟩
  | .hbm, ⟨14, _⟩ => ⟨S26000000, .i32⟩
  | .hbm, ⟨15, _⟩ => ⟨S_, .i32⟩
  | .hbm, ⟨16, _⟩ => ⟨S26000000, .i32⟩
  | .hbm, ⟨17, _⟩ => ⟨S26000000, .i1⟩
  | .hbm, ⟨18, _⟩ => ⟨S_, .i32⟩
  | .hbm, ⟨19, _⟩ => ⟨S26000000, .i32⟩
  | .hbm, ⟨20, _⟩ => ⟨S26000000, .i32⟩
  | .hbm, ⟨21, _⟩ => ⟨S26000000, .i32⟩
  | .hbm, ⟨22, _⟩ => ⟨S26000000x1, .i32⟩
  | .hbm, ⟨23, _⟩ => ⟨S26000000x3, .f32⟩
  | .hbm, ⟨24, _⟩ => ⟨S_, .f32⟩
  | .hbm, ⟨25, _⟩ => ⟨S1000000x3, .f32⟩
  | .hbm, ⟨26, _⟩ => ⟨S26000000x1, .i32⟩
  | .hbm, ⟨27, _⟩ => ⟨S1000000x3, .f32⟩
  | .hbm, ⟨28, _⟩ => ⟨S3x1000000, .f32⟩
  | .hbm, ⟨29, _⟩ => ⟨S_, .i32⟩
  | .hbm, ⟨30, _⟩ => ⟨S_, .f32⟩
  | .hbm, ⟨31, _⟩ => ⟨S3x1007616, .f32⟩
  | .hbm, ⟨32, _⟩ => ⟨S3x1000000, .f32⟩
  | .hbm, ⟨33, _⟩ => ⟨S_, .i32⟩
  | .hbm, ⟨34, _⟩ => ⟨S_, .f32⟩
  | .hbm, ⟨35, _⟩ => ⟨S3x1007616, .f32⟩
  | .hbm, ⟨36, _⟩ => ⟨S16x6, .f32⟩
  | .hbm, ⟨37, _⟩ => ⟨S16x16, .f32⟩
  | .hbm, ⟨38, _⟩ => ⟨S3x16, .f32⟩
  | .hbm, ⟨39, _⟩ => ⟨S16x1, .f32⟩
  | .hbm, ⟨40, _⟩ => ⟨S16x1, .f32⟩
  | .hbm, ⟨41, _⟩ => ⟨S3x1, .f32⟩
  | .hbm, ⟨42, _⟩ => ⟨S3x1007616, .f32⟩
  | .hbm, ⟨43, _⟩ => ⟨S3x1000000, .f32⟩
  | .hbm, ⟨44, _⟩ => ⟨S1000000x3, .f32⟩
  | .local _ .vmem, ⟨0, _⟩ => ⟨S3x8192, .f32⟩
  | .local _ .vmem, ⟨1, _⟩ => ⟨S3x8192, .f32⟩
  | .local _ .vmem, ⟨2, _⟩ => ⟨S3x8192, .f32⟩
  | .local _ .vmem, ⟨3, _⟩ => ⟨S3x8192, .f32⟩
  | .local _ .vmem, ⟨4, _⟩ => ⟨S16x6, .f32⟩
  | .local _ .vmem, ⟨5, _⟩ => ⟨S16x1, .f32⟩
  | .local _ .vmem, ⟨6, _⟩ => ⟨S16x16, .f32⟩
  | .local _ .vmem, ⟨7, _⟩ => ⟨S16x1, .f32⟩
  | .local _ .vmem, ⟨8, _⟩ => ⟨S3x16, .f32⟩
  | .local _ .vmem, ⟨9, _⟩ => ⟨S3x1, .f32⟩
  | .local _ .vmem, ⟨10, _⟩ => ⟨S3x8192, .f32⟩
  | .local _ .vmem, ⟨11, _⟩ => ⟨S3x8192, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_call1_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x26000000_S1x26000000_0_0 : S2x26000000.Slices ![0, 0] S1x26000000
  shapeCasts_S1x26000000_S26000000 : S1x26000000.ShapeCasts S26000000
  slices_S2x26000000_S1x26000000_1_0 : S2x26000000.Slices ![1, 0] S1x26000000
  bcast_S_S26000000 : S_.BroadcastsInDim S26000000 (![] : Fin 0 → Fin S26000000.rank)
  bcast_S26000000_S26000000x1_0 : S26000000.BroadcastsInDim S26000000x1 (![0] : Fin 1 → Fin S26000000x1.rank)
  bcast_S_S1000000x3 : S_.BroadcastsInDim S1000000x3 (![] : Fin 0 → Fin S1000000x3.rank)
  transposes_S1000000x3_S3x1000000_1_0 : S1000000x3.Transposes [1, 0] S3x1000000
  pads_S3x1000000_S3x1007616_000_076160 : S3x1000000.Pads (![0, 0] : Fin 2 → Nat) ![0, 7616] ![0, 0] S3x1007616
  h_S_ : 0 < S_.numel
  transposes_S6x16_S16x6_1_0 : S6x16.Transposes [1, 0] S16x6
  transposes_S16x16_S16x16_1_0 : S16x16.Transposes [1, 0] S16x16
  transposes_S16x3_S3x16_1_0 : S16x3.Transposes [1, 0] S3x16
  shapeCasts_S16_S16x1 : S16.ShapeCasts S16x1
  shapeCasts_S3_S3x1 : S3.ShapeCasts S3x1
  inb_S3x8192_S3x8192_0_0 : ∀ a, (![0, 0] : Fin 2 → Nat) a + S3x8192.size a ≤ S3x8192.size a
  h_S3x8192 : 0 < S3x8192.numel
  shapeCasts_S3x8192_S3x8192 : S3x8192.ShapeCasts S3x8192
  concatenates_S3x8192_S3x8192_S6x8192_d0 : Shape.Concatenates [S3x8192, S3x8192] S6x8192 0
  bitsLt_bf16_f32 : FTy.bits .bf16 < FTy.bits .f32
  inb_S16x6_S16x6_0_0 : ∀ a, (![0, 0] : Fin 2 → Nat) a + S16x6.size a ≤ S16x6.size a
  h_S16x6 : 0 < S16x6.numel
  shapeCasts_S16x6_S16x6 : S16x6.ShapeCasts S16x6
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x8192 : S16x1.Broadcasts S16x8192
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S3x16_S3x16_0_0 : ∀ a, (![0, 0] : Fin 2 → Nat) a + S3x16.size a ≤ S3x16.size a
  h_S3x16 : 0 < S3x16.numel
  shapeCasts_S3x16_S3x16 : S3x16.ShapeCasts S3x16
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x8192 : S3x1.Broadcasts S3x8192
  slices_S3x1007616_S3x1000000_0_0 : S3x1007616.Slices ![0, 0] S3x1000000
  transposes_S3x1000000_S1000000x3_1_0 : S3x1000000.Transposes [1, 0] S1000000x3
  gather_S1000000x3_S26000000x1_S26000000x3_1_0_n_n_0_1_13_wf : GatherDims.WF S1000000x3 S26000000x1 S26000000x3 [1] [0] [] [0] [] 1 ![1, 3]
  scatter_S1000000x3_S26000000x1_S26000000x3_1_0_0_1_wf : ScatterDims.WF S1000000x3 S26000000x1 S26000000x3 [1] [0] [0] 1
  dot_S16x6_S6x8192_S16x8192_1_0_0_1_n_n_wf : DotDims.WF S16x6 S6x8192 S16x8192 [1] [0] [0] [1] [] []
  dot_S16x16_S16x8192_S16x8192_1_0_0_1_n_n_wf : DotDims.WF S16x16 S16x8192 S16x8192 [1] [0] [0] [1] [] []
  dot_S3x16_S16x8192_S3x8192_1_0_0_1_n_n_wf : DotDims.WF S3x16 S16x8192 S3x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8192.size a ≤ S3x1007616.size a
  hwx0_0 : ∀ i : grid0.Coords, EltTy.bits .f32 = 32 ∨ (Rect.block (s := S3x1007616) S3x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x1007616.size a
  hwx0_1 : ∀ i : grid0.Coords, EltTy.bits .f32 = 32 ∨ (Rect.block (s := S3x1007616) S3x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x6.size a ≤ S16x6.size a
  hwx0_2 : ∀ i : grid0.Coords, EltTy.bits .f32 = 32 ∨ (Rect.block (s := S16x6) S16x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x16.size a ≤ S3x16.size a
  hwx0_6 : ∀ i : grid0.Coords, EltTy.bits .f32 = 32 ∨ (Rect.block (s := S3x16) S3x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x1.size a ≤ S3x1.size a
  hwx0_7 : ∀ i : grid0.Coords, EltTy.bits .f32 = 32 ∨ (Rect.block (s := S3x1) S3x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3x8192.size a ≤ S3x1007616.size a
  hwx0_8 : ∀ i : grid0.Coords, EltTy.bits .f32 = 32 ∨ (Rect.block (s := S3x1007616) S3x8192.size (cc0_transform_8 i) (hinb0_8 i)).WholeWords (EltTy.packing .f32)

variable [Facts₀]

def gather_S1000000x3_S26000000x1_S26000000x3_1_0_n_n_0_1_13 : GatherDims S1000000x3 S26000000x1 S26000000x3 where
  offsetDims := [1]
  collapsedSliceDims := [0]
  operandBatchingDims := []
  startIndicesBatchingDims := []
  startIndexMap := [0]
  indexVectorDim := 1
  sliceSizes := ![1, 3]
  wf := gather_S1000000x3_S26000000x1_S26000000x3_1_0_n_n_0_1_13_wf
def scatter_S1000000x3_S26000000x1_S26000000x3_1_0_0_1 : ScatterDims S1000000x3 S26000000x1 S26000000x3 where
  updateWindowDims := [1]
  insertedWindowDims := [0]
  scatterDimsToOperandDims := [0]
  indexVectorDim := 1
  wf := scatter_S1000000x3_S26000000x1_S26000000x3_1_0_0_1_wf
def dot_S16x6_S6x8192_S16x8192_1_0_0_1_n_n : DotDims S16x6 S6x8192 S16x8192 where
  lhsContracting := [1]
  rhsContracting := [0]
  lhsNonContracting := [0]
  rhsNonContracting := [1]
  lhsBatch := []
  rhsBatch := []
  wf := dot_S16x6_S6x8192_S16x8192_1_0_0_1_n_n_wf
def dot_S16x16_S16x8192_S16x8192_1_0_0_1_n_n : DotDims S16x16 S16x8192 S16x8192 where
  lhsContracting := [1]
  rhsContracting := [0]
  lhsNonContracting := [0]
  rhsNonContracting := [1]
  lhsBatch := []
  rhsBatch := []
  wf := dot_S16x16_S16x8192_S16x8192_1_0_0_1_n_n_wf
def dot_S3x16_S16x8192_S3x8192_1_0_0_1_n_n : DotDims S3x16 S16x8192 S3x8192 where
  lhsContracting := [1]
  rhsContracting := [0]
  lhsNonContracting := [0]
  rhsNonContracting := [1]
  lhsBatch := []
  rhsBatch := []
  wf := dot_S3x16_S16x8192_S3x8192_1_0_0_1_n_n_wf

abbrev win0_0 : Pipeline.Window sig grid0 :=
  Pipeline.Window.ofSpec (Memref.whole main_v15) S3x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S16x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S3x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S3x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S3x8192.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S2x26000000 : Shape := ⟨2, ![2, 26000000]⟩
abbrev S26000000x1 : Shape := ⟨2, ![26000000, 1]⟩
abbrev S1x8 : Shape := ⟨2, ![1, 8]⟩
abbrev S1000000 : Shape := ⟨1, ![1000000]⟩
abbrev S6x16 : Shape := ⟨2, ![6, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S1x26000000 : Shape := ⟨2, ![1, 26000000]⟩
abbrev S26000000 : Shape := ⟨1, ![26000000]⟩
abbrev S_ : Shape := ⟨0, ![]⟩
abbrev S26000000x3 : Shape := ⟨2, ![26000000, 3]⟩
abbrev S1000000x6 : Shape := ⟨2, ![1000000, 6]⟩
abbrev S1000000x16 : Shape := ⟨2, ![1000000, 16]⟩
abbrev S1x16 : Shape := ⟨2, ![1, 16]⟩
abbrev S1x3 : Shape := ⟨2, ![1, 3]⟩

abbrev nBuf : Space → Nat
  | .hbm => 47
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S2x26000000, .i32⟩
  | .hbm, ⟨2, _⟩ => ⟨S26000000x1, .f32⟩
  | .hbm, ⟨3, _⟩ => ⟨S1x8, .f32⟩
  | .hbm, ⟨4, _⟩ => ⟨S1000000, .i32⟩
  | .hbm, ⟨5, _⟩ => ⟨S6x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x3, .f32⟩
  | .hbm, ⟨10, _⟩ => ⟨S3, .f32⟩
  | .hbm, ⟨11, _⟩ => ⟨S1x26000000, .i32⟩
  | .hbm, ⟨12, _⟩ => ⟨S26000000, .i32⟩
  | .hbm, ⟨13, _⟩ => ⟨S1x26000000, .i32⟩
  | .hbm, ⟨14, _⟩ => ⟨S26000000, .i32⟩
  | .hbm, ⟨15, _⟩ => ⟨S_, .i32⟩
  | .hbm, ⟨16, _⟩ => ⟨S26000000, .i32⟩
  | .hbm, ⟨17, _⟩ => ⟨S26000000, .i1⟩
  | .hbm, ⟨18, _⟩ => ⟨S_, .i32⟩
  | .hbm, ⟨19, _⟩ => ⟨S26000000, .i32⟩
  | .hbm, ⟨20, _⟩ => ⟨S26000000, .i32⟩
  | .hbm, ⟨21, _⟩ => ⟨S26000000, .i32⟩
  | .hbm, ⟨22, _⟩ => ⟨S26000000x1, .i32⟩
  | .hbm, ⟨23, _⟩ => ⟨S26000000x3, .f32⟩
  | .hbm, ⟨24, _⟩ => ⟨S_, .f32⟩
  | .hbm, ⟨25, _⟩ => ⟨S1000000x3, .f32⟩
  | .hbm, ⟨26, _⟩ => ⟨S26000000x1, .i32⟩
  | .hbm, ⟨27, _⟩ => ⟨S1000000x3, .f32⟩
  | .hbm, ⟨28, _⟩ => ⟨S1000000x6, .f32⟩
  | .hbm, ⟨29, _⟩ => ⟨S1000000x16, .f32⟩
  | .hbm, ⟨30, _⟩ => ⟨S1x16, .f32⟩
  | .hbm, ⟨31, _⟩ => ⟨S1000000x16, .f32⟩
  | .hbm, ⟨32, _⟩ => ⟨S1000000x16, .f32⟩
  | .hbm, ⟨33, _⟩ => ⟨S_, .f32⟩
  | .hbm, ⟨34, _⟩ => ⟨S1000000x16, .f32⟩
  | .hbm, ⟨35, _⟩ => ⟨S1000000x16, .f32⟩
  | .hbm, ⟨36, _⟩ => ⟨S1000000x16, .f32⟩
  | .hbm, ⟨37, _⟩ => ⟨S1x16, .f32⟩
  | .hbm, ⟨38, _⟩ => ⟨S1000000x16, .f32⟩
  | .hbm, ⟨39, _⟩ => ⟨S1000000x16, .f32⟩
  | .hbm, ⟨40, _⟩ => ⟨S_, .f32⟩
  | .hbm, ⟨41, _⟩ => ⟨S1000000x16, .f32⟩
  | .hbm, ⟨42, _⟩ => ⟨S1000000x16, .f32⟩
  | .hbm, ⟨43, _⟩ => ⟨S1000000x3, .f32⟩
  | .hbm, ⟨44, _⟩ => ⟨S1x3, .f32⟩
  | .hbm, ⟨45, _⟩ => ⟨S1000000x3, .f32⟩
  | .hbm, ⟨46, _⟩ => ⟨S1000000x3, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  slices_S2x26000000_S1x26000000_0_0 : S2x26000000.Slices ![0, 0] S1x26000000
  shapeCasts_S1x26000000_S26000000 : S1x26000000.ShapeCasts S26000000
  slices_S2x26000000_S1x26000000_1_0 : S2x26000000.Slices ![1, 0] S1x26000000
  bcast_S_S26000000 : S_.BroadcastsInDim S26000000 (![] : Fin 0 → Fin S26000000.rank)
  bcast_S26000000_S26000000x1_0 : S26000000.BroadcastsInDim S26000000x1 (![0] : Fin 1 → Fin S26000000x1.rank)
  bcast_S_S1000000x3 : S_.BroadcastsInDim S1000000x3 (![] : Fin 0 → Fin S1000000x3.rank)
  concatenates_S1000000x3_S1000000x3_S1000000x6_d1 : Shape.Concatenates [S1000000x3, S1000000x3] S1000000x6 1
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000x16 : S_.BroadcastsInDim S1000000x16 (![] : Fin 0 → Fin S1000000x16.rank)
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  gather_S1000000x3_S26000000x1_S26000000x3_1_0_n_n_0_1_13_wf : GatherDims.WF S1000000x3 S26000000x1 S26000000x3 [1] [0] [] [0] [] 1 ![1, 3]
  scatter_S1000000x3_S26000000x1_S26000000x3_1_0_0_1_wf : ScatterDims.WF S1000000x3 S26000000x1 S26000000x3 [1] [0] [0] 1
  dot_S1000000x6_S6x16_S1000000x16_1_0_0_1_n_n_wf : DotDims.WF S1000000x6 S6x16 S1000000x16 [1] [0] [0] [1] [] []
  dot_S1000000x16_S16x16_S1000000x16_1_0_0_1_n_n_wf : DotDims.WF S1000000x16 S16x16 S1000000x16 [1] [0] [0] [1] [] []
  dot_S1000000x16_S16x3_S1000000x3_1_0_0_1_n_n_wf : DotDims.WF S1000000x16 S16x3 S1000000x3 [1] [0] [0] [1] [] []

variable [Facts₀]

def gather_S1000000x3_S26000000x1_S26000000x3_1_0_n_n_0_1_13 : GatherDims S1000000x3 S26000000x1 S26000000x3 where
  offsetDims := [1]
  collapsedSliceDims := [0]
  operandBatchingDims := []
  startIndicesBatchingDims := []
  startIndexMap := [0]
  indexVectorDim := 1
  sliceSizes := ![1, 3]
  wf := gather_S1000000x3_S26000000x1_S26000000x3_1_0_n_n_0_1_13_wf
def scatter_S1000000x3_S26000000x1_S26000000x3_1_0_0_1 : ScatterDims S1000000x3 S26000000x1 S26000000x3 where
  updateWindowDims := [1]
  insertedWindowDims := [0]
  scatterDimsToOperandDims := [0]
  indexVectorDim := 1
  wf := scatter_S1000000x3_S26000000x1_S26000000x3_1_0_0_1_wf
def dot_S1000000x6_S6x16_S1000000x16_1_0_0_1_n_n : DotDims S1000000x6 S6x16 S1000000x16 where
  lhsContracting := [1]
  rhsContracting := [0]
  lhsNonContracting := [0]
  rhsNonContracting := [1]
  lhsBatch := []
  rhsBatch := []
  wf := dot_S1000000x6_S6x16_S1000000x16_1_0_0_1_n_n_wf
def dot_S1000000x16_S16x16_S1000000x16_1_0_0_1_n_n : DotDims S1000000x16 S16x16 S1000000x16 where
  lhsContracting := [1]
  rhsContracting := [0]
  lhsNonContracting := [0]
  rhsNonContracting := [1]
  lhsBatch := []
  rhsBatch := []
  wf := dot_S1000000x16_S16x16_S1000000x16_1_0_0_1_n_n_wf
def dot_S1000000x16_S16x3_S1000000x3_1_0_0_1_n_n : DotDims S1000000x16 S16x3 S1000000x3 where
  lhsContracting := [1]
  rhsContracting := [0]
  lhsNonContracting := [0]
  rhsNonContracting := [1]
  lhsBatch := []
  rhsBatch := []
  wf := dot_S1000000x16_S16x3_S1000000x3_1_0_0_1_n_n_wf

class Facts : Prop extends Facts₀ where

variable [Facts]
-- ==== Proof.Node.lean ====
/-
  One node's update in a message-passing layer, over the extended reals.

  A node carries six input features: its own three and the three it aggregated from its neighbours. The update is a
  three-layer perceptron: a dense layer 6 → 16 and a rectifier, a dense layer 16 → 16 and a rectifier, a dense layer
  16 → 3. A dense layer sends a feature vector f to  j ↦ (Σₖ f k · W k j) + b j.  The update acts on each node by
  itself, so both a row-major evaluation (nodes down the rows, features along the columns, weights on the right) and a
  column-major one (features down the rows, nodes along the columns, transposed weights on the left) are this function
  applied node by node; they differ only in the order of the two factors of each product, and multiplication of
  extended reals is commutative.
-/
import Idealize.ShloMosaic.PureOps.Ideal

noncomputable section

open scoped BigOperators

namespace Cert.NodeMlp

/-- A node's six input features: its own three first, then its three aggregated ones. -/
def feat (a b : Fin 3 → EReal) : Fin 6 → EReal :=
  fun k => if h : k.val < 3 then a ⟨k.val, h⟩ else b ⟨k.val - 3, by have := k.isLt; omega⟩

/-- A dense layer: j ↦ (Σₖ f k · W k j) + b j. -/
def dense {K J : ℕ} (f : Fin K → EReal) (W : Fin K → Fin J → EReal) (b : Fin J → EReal) : Fin J → EReal :=
  fun j => (∑ k : Fin K, f k * W k j) + b j

/-- The rectifier, entry by entry. -/
def relu {J : ℕ} (f : Fin J → EReal) : Fin J → EReal := fun j => max (f j) 0

/-- The update of one node with features f. -/
def node (f : Fin 6 → EReal) (W1 : Fin 6 → Fin 16 → EReal) (b1 : Fin 16 → EReal) (W2 : Fin 16 → Fin 16 → EReal)
    (b2 : Fin 16 → EReal) (W3 : Fin 16 → Fin 3 → EReal) (b3 : Fin 3 → EReal) : Fin 3 → EReal :=
  dense (relu (dense (relu (dense f W1 b1)) W2 b2)) W3 b3

/-- A dense layer evaluated with the transposed weights on the left, (Σₖ Wt j k · f k) + b j, is the dense layer with
    weights W k j = Wt j k: the factors of each product commute. -/
theorem dense_left {K J : ℕ} (f : Fin K → EReal) (Wt : Fin J → Fin K → EReal) (b : Fin J → EReal) (j : Fin J) :
    (∑ k : Fin K, Wt j k * f k) + b j = dense f (fun k j => Wt j k) b j := by
  unfold dense
  exact congrArg (· + b j) (Finset.sum_congr rfl fun k _ => mul_comm _ _)

/-- The first three features are the node's own. -/
theorem feat_own (a b : Fin 3 → EReal) (k : Fin 6) (h : k.val < 3) : feat a b k = a ⟨k.val, h⟩ := by
  unfold feat; rw [dif_pos h]

/-- The last three features are the aggregated ones. -/
theorem feat_agg (a b : Fin 3 → EReal) (k : Fin 6) (h : ¬ k.val < 3) :
    feat a b k = b ⟨k.val - 3, by have := k.isLt; omega⟩ := by
  unfold feat; rw [dif_neg h]

end Cert.NodeMlp

end
-- ==== Proof.RefNode.lean ====
/-
  The reference, read node by node.

  The reference lays the nodes down the rows: it joins each node's own three features with its three aggregated ones
  into a row of six, and applies the three dense layers with the weights on the right. Read at row n and column j,
  its result is the one-node update (Node.lean) of node n's six features, at output j. The aggregated features are
  kept as the array the gather and the scatter-add produce; nothing is asked of them here.
-/
import proofs.«111206_j21552145891503_1_alg».proof.Proof.Gen.ReferenceIdeal.Read
import proofs.«111206_j21552145891503_1_alg».proof.Proof.Node
import Idealize.ShloMosaic.Lib.ValueIdx
import Idealize.ShloMosaic.Lib.Pipeline.Value
import Idealize.ShloMosaic.PureOps.Ideal.Laws

noncomputable section

namespace Cert.ReferenceIdeal.RefNode

open Cert.ReferenceIdeal Cert.ReferenceIdeal.Gen Cert.ReferenceIdeal.Read Cert.NodeMlp
open Idealize.ShloMosaic Idealize.ShloMosaic.ValueIdx

variable (x0 : (⟨S1000000x3, .f32⟩ : BufTy).Contents (Elt Ideal)) (x1 : (⟨S2x26000000, .i32⟩ : BufTy).Contents (Elt Ideal))
  (x5 : (⟨S6x16, .f32⟩ : BufTy).Contents (Elt Ideal)) (x6 : (⟨S16, .f32⟩ : BufTy).Contents (Elt Ideal))
  (x7 : (⟨S16x16, .f32⟩ : BufTy).Contents (Elt Ideal)) (x8 : (⟨S16, .f32⟩ : BufTy).Contents (Elt Ideal))
  (x9 : (⟨S16x3, .f32⟩ : BufTy).Contents (Elt Ideal)) (x10 : (⟨S3, .f32⟩ : BufTy).Contents (Elt Ideal))

/-- Node n's six features in the reference: its row of x, then its row of the aggregated array. -/
abbrev feats (n : Fin 1000000) : Fin 6 → EReal :=
  feat (fun k => x0 (ix2 n k)) (fun k => val_main_v13 (F := Ideal) x0 x1 (ix2 n k))

/-- Row n of the joined array is node n's six features. -/
theorem joined_apply (n : Fin 1000000) (k : Fin 6) :
    val_main_v14 (F := Ideal) x0 x1 (ix2 n k) = feats x0 x1 n k := by
  unfold val_main_v14
  by_cases h : k.val < 3
  · rw [feats, feat_own _ _ k h]
    exact concatenate_pair_apply_left (1 : Fin S1000000x6.rank) x0 _ concatenates_S1000000x3_S1000000x3_S1000000x6_d1
      (ix2 n k) rfl (ix2 n (⟨k.val, h⟩ : Fin 3)) (fun b => match b with | ⟨0, _⟩ => rfl | ⟨1, _⟩ => rfl)
  · rw [feats, feat_agg _ _ k h]
    exact concatenate_pair_apply_right (1 : Fin S1000000x6.rank) x0 _ concatenates_S1000000x3_S1000000x3_S1000000x6_d1
      (ix2 n k) rfl rfl (ix2 n (⟨k.val - 3, by have := k.isLt; omega⟩ : Fin 3))
      (fun b hb => match b, hb with
        | ⟨0, _⟩, _ => rfl
        | ⟨1, _⟩, hb => absurd rfl hb)
      (by show (k.val - 3) + 3 = k.val; omega)

theorem lidx15 (n : Fin 1000000) (j : Fin 16) (k : Fin 6) : lidx_main_v15 (ix2 n j) k = ix2 n k :=
  funext fun a => Fin.ext (by match a with | ⟨0, _⟩ => rfl | ⟨1, _⟩ => rfl)
theorem ridx15 (n : Fin 1000000) (j : Fin 16) (k : Fin 6) : ridx_main_v15 (ix2 n j) k = ix2 k j :=
  funext fun a => Fin.ext (by match a with | ⟨0, _⟩ => rfl | ⟨1, _⟩ => rfl)
theorem lidx20 (n : Fin 1000000) (j : Fin 16) (k : Fin 16) : lidx_main_v20 (ix2 n j) k = ix2 n k :=
  funext fun a => Fin.ext (by match a with | ⟨0, _⟩ => rfl | ⟨1, _⟩ => rfl)
theorem ridx20 (n : Fin 1000000) (j : Fin 16) (k : Fin 16) : ridx_main_v20 (ix2 n j) k = ix2 k j :=
  funext fun a => Fin.ext (by match a with | ⟨0, _⟩ => rfl | ⟨1, _⟩ => rfl)
theorem lidx25 (n : Fin 1000000) (j : Fin 3) (k : Fin 16) : lidx_main_v25 (ix2 n j) k = ix2 n k :=
  funext fun a => Fin.ext (by match a with | ⟨0, _⟩ => rfl | ⟨1, _⟩ => rfl)
theorem ridx25 (n : Fin 1000000) (j : Fin 3) (k : Fin 16) : ridx_main_v25 (ix2 n j) k = ix2 k j :=
  funext fun a => Fin.ext (by match a with | ⟨0, _⟩ => rfl | ⟨1, _⟩ => rfl)
theorem bias16 (n : Fin 1000000) (j : Fin 16) : idx_main_v16 (idx_main_v17 (ix2 n j)) = ix1 j :=
  funext fun a => Fin.ext (by match a with | ⟨0, _⟩ => rfl)
theorem bias21 (n : Fin 1000000) (j : Fin 16) : idx_main_v21 (idx_main_v22 (ix2 n j)) = ix1 j :=
  funext fun a => Fin.ext (by match a with | ⟨0, _⟩ => rfl)
theorem bias26 (n : Fin 1000000) (j : Fin 3) : idx_main_v26 (idx_main_v27 (ix2 n j)) = ix1 j :=
  funext fun a => Fin.ext (by match a with | ⟨0, _⟩ => rfl)

/-- The first hidden layer at node n. -/
abbrev hidden1 (n : Fin 1000000) : Fin 16 → EReal :=
  relu (dense (feats x0 x1 n) (fun k j => x5 (ix2 k j)) (fun j => x6 (ix1 j)))
/-- The second hidden layer at node n. -/
abbrev hidden2 (n : Fin 1000000) : Fin 16 → EReal :=
  relu (dense (hidden1 x0 x1 x5 x6 n) (fun k j => x7 (ix2 k j)) (fun j => x8 (ix1 j)))

theorem layer1_apply (n : Fin 1000000) (j : Fin 16) :
    val_main_v19 (F := Ideal) x0 x1 x5 x6 (ix2 n j) = hidden1 x0 x1 x5 x6 n j := by
  rw [val_main_v19_apply, val_main_v18_apply, val_main_v15_apply, val_main_v17_apply, val_main_v16_apply,
    val_main_call0_v0_apply, val_main_call0_cst_apply, bias16]
  refine congrArg₂ max (congrArg₂ (· + ·) (Finset.sum_congr rfl fun k _ => ?_) rfl) Ideal.ofBits_zero_f32
  rw [lidx15, ridx15, joined_apply]

theorem layer2_apply (n : Fin 1000000) (j : Fin 16) :
    val_main_v24 (F := Ideal) x0 x1 x5 x6 x7 x8 (ix2 n j) = hidden2 x0 x1 x5 x6 x7 x8 n j := by
  rw [val_main_v24_apply, val_main_v23_apply, val_main_v20_apply, val_main_v22_apply, val_main_v21_apply,
    val_main_call1_v0_apply, val_main_call1_cst_apply, bias21]
  refine congrArg₂ max (congrArg₂ (· + ·) (Finset.sum_congr rfl fun k _ => ?_) rfl) Ideal.ofBits_zero_f32
  rw [lidx20, ridx20, layer1_apply]

/-- THE REFERENCE at row n, column j: the one-node update of node n's features, at output j. -/
theorem result_apply (n : Fin 1000000) (j : Fin 3) :
    val_main_v28 (F := Ideal) x0 x1 x5 x6 x7 x8 x9 x10 (ix2 n j)
      = node (feats x0 x1 n) (fun k j => x5 (ix2 k j)) (fun j => x6 (ix1 j)) (fun k j => x7 (ix2 k j))
          (fun j => x8 (ix1 j)) (fun k j => x9 (ix2 k j)) (fun j => x10 (ix1 j)) j := by
  rw [val_main_v28_apply, val_main_v25_apply, val_main_v27_apply, val_main_v26_apply, bias26]
  refine congrArg₂ (· + ·) (Finset.sum_congr rfl fun k _ => ?_) rfl
  rw [lidx25, ridx25, layer2_apply]

end Cert.ReferenceIdeal.RefNode

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.TileNode.lean ====
/-
  The kernel's tile, read node by node.

  The kernel lays the nodes along the columns (lanes): a tile holds 8192 nodes, a node's features run down a column. It
  stacks the block of own features on the block of aggregated features into six rows, and applies the three dense
  layers with the TRANSPOSED weights on the left and the biases as columns spread along the lanes; the narrowing of
  the operands of each product to a shorter float format is the identity on extended reals. Read at row j and column
  l, the tile is the one-node update (Node.lean) of the six features in column l, at output j: each product has its
  two factors in the other order, which is the same extended real.
-/
import proofs.«111206_j21552145891503_1_alg».proof.Proof.Gen.KernelIdeal.Skeleton
import proofs.«111206_j21552145891503_1_alg».proof.Proof.Node
import proofs.«111206_j21552145891503_1_alg».proof.Proof.LibPlainProduct
import proofs.«111206_j21552145891503_1_alg».proof.Proof.LibTile
import Idealize.ShloMosaic.Lib.ValueIdx
import Idealize.ShloMosaic.Lib.Pipeline.Value
import Idealize.ShloMosaic.PureOps.Ideal.Laws

noncomputable section

namespace Cert.KernelIdeal.TileNode

open Cert.KernelIdeal Cert.KernelIdeal.Gen Cert.NodeMlp
open Idealize.ShloMosaic Idealize.ShloMosaic.ValueIdx

/-! ## One dense layer in column-major form -/

/-- A product of the transposed weights [J, K] by the features [K, L] into a zero accumulator, plus the bias column
    [J, 1] spread along the columns, read at (j, l): the dense layer of column l's features, at output j. The operands
    of the product may carry any float format. -/
theorem layer_apply {J K L : ℕ} {φ₁ φ₂ : FTy} (wt : FVec Ideal ⟨2, ![J, K]⟩ φ₁) (h : FVec Ideal ⟨2, ![K, L]⟩ φ₂)
    (bc : FVec Ideal ⟨2, ![J, 1]⟩ .f32) (hbb : (⟨2, ![J, 1]⟩ : Shape).Broadcasts ⟨2, ![J, L]⟩) (j : Fin J) (l : Fin L) :
    addf (matmul (F := Ideal) (DotDims.plain J K L) none wt h (constant (F := Ideal) ⟨2, ![J, L]⟩ .f32 0x00000000#32))
        (broadcastTo ⟨2, ![J, L]⟩ bc hbb) (ix2 j l)
      = dense (fun k => h (ix2 k l)) (fun k j => wt (ix2 j k)) (fun j => bc (ix2 j (0 : Fin 1))) j := by
  refine Eq.trans ?_ (dense_left (fun k => h (ix2 k l)) (fun j k => wt (ix2 j k)) (fun j => bc (ix2 j (0 : Fin 1))) j)
  exact congrArg₂ (· + ·) (Cert.PlainProduct.matmul_zero_apply none wt h j l) (Cert.Tile.broadcastTo_a1_ab_apply bc hbb j l)

/-- The same followed by the rectifier. -/
theorem reluLayer_apply {J K L : ℕ} {φ₁ φ₂ : FTy} (wt : FVec Ideal ⟨2, ![J, K]⟩ φ₁) (h : FVec Ideal ⟨2, ![K, L]⟩ φ₂)
    (bc : FVec Ideal ⟨2, ![J, 1]⟩ .f32) (hbb : (⟨2, ![J, 1]⟩ : Shape).Broadcasts ⟨2, ![J, L]⟩) (j : Fin J) (l : Fin L) :
    maximumf (addf (matmul (F := Ideal) (DotDims.plain J K L) none wt h (constant (F := Ideal) ⟨2, ![J, L]⟩ .f32 0x00000000#32))
        (broadcastTo ⟨2, ![J, L]⟩ bc hbb)) (broadcast ⟨2, ![J, L]⟩ (Scalar.ofBits (F := Ideal) .f32 0x00000000#32)) (ix2 j l)
      = relu (dense (fun k => h (ix2 k l)) (fun k j => wt (ix2 j k)) (fun j => bc (ix2 j (0 : Fin 1)))) j :=
  congrArg₂ max (layer_apply wt h bc hbb j l) Ideal.ofBits_zero_f32

/-! ## The tile's stages -/

variable (xb ab : Vec Ideal S3x8192 .f32) (w1t : Vec Ideal S16x6 .f32) (b1c : Vec Ideal S16x1 .f32)
  (w2t : Vec Ideal S16x16 .f32) (b2c : Vec Ideal S16x1 .f32) (w3t : Vec Ideal S3x16 .f32) (b3c : Vec Ideal S3x1 .f32)

/-- The six feature rows: the own-feature block stacked on the aggregated-feature block. -/
def stacked : FVec Ideal S6x8192 .f32 :=
  concatenate S6x8192 0 [⟨S3x8192, shapeCast S3x8192 xb shapeCasts_S3x8192_S3x8192⟩, ⟨S3x8192, shapeCast S3x8192 ab shapeCasts_S3x8192_S3x8192⟩]
    concatenates_S3x8192_S3x8192_S6x8192_d0

/-- The first hidden layer of the tile. -/
def act1 : FVec Ideal S16x8192 .f32 :=
  maximumf (addf (matmul dot_S16x6_S6x8192_S16x8192_1_0_0_1_n_n none (truncf .bf16 (shapeCast S16x6 w1t shapeCasts_S16x6_S16x6) bitsLt_bf16_f32)
      (truncf .bf16 (stacked xb ab) bitsLt_bf16_f32) (constant S16x8192 .f32 0x00000000#32))
    (broadcastTo S16x8192 (shapeCast S16x1 b1c shapeCasts_S16x1_S16x1) broadcasts_S16x1_S16x8192))
    (broadcast S16x8192 (Scalar.ofBits .f32 0x00000000#32))

/-- The second hidden layer of the tile. -/
def act2 : FVec Ideal S16x8192 .f32 :=
  maximumf (addf (matmul dot_S16x16_S16x8192_S16x8192_1_0_0_1_n_n none (truncf .bf16 (shapeCast S16x16 w2t shapeCasts_S16x16_S16x16) bitsLt_bf16_f32)
      (truncf .bf16 (act1 xb ab w1t b1c) bitsLt_bf16_f32) (constant S16x8192 .f32 0x00000000#32))
    (broadcastTo S16x8192 (shapeCast S16x1 b2c shapeCasts_S16x1_S16x1) broadcasts_S16x1_S16x8192))
    (broadcast S16x8192 (Scalar.ofBits .f32 0x00000000#32))

/-- The body's stored value is the third dense layer of those stages. -/
theorem payload_eq : k0_pay1 (F := Ideal) xb ab w1t b1c w2t b2c w3t b3c
    = addf (matmul dot_S3x16_S16x8192_S3x8192_1_0_0_1_n_n none (truncf .bf16 (shapeCast S3x16 w3t shapeCasts_S3x16_S3x16) bitsLt_bf16_f32)
        (truncf .bf16 (act2 xb ab w1t b1c w2t b2c) bitsLt_bf16_f32) (constant S3x8192 .f32 0x00000000#32))
      (broadcastTo S3x8192 (shapeCast S3x1 b3c shapeCasts_S3x1_S3x1) broadcasts_S3x1_S3x8192) := rfl

/-- Column l of the tile's blocks as a node's six features. -/
abbrev column (l : Fin 8192) : Fin 6 → EReal := feat (fun k => xb (ix2 k l)) (fun k => ab (ix2 k l))

/-- Column l of the stacked rows is that feature vector. -/
theorem stacked_apply (k : Fin 6) (l : Fin 8192) : stacked xb ab (ix2 k l) = column xb ab l k := by
  unfold stacked
  rw [shapeCast_self, shapeCast_self]
  by_cases h : k.val < 3
  · rw [column, feat_own _ _ k h]
    exact concatenate_pair_apply_left (0 : Fin S6x8192.rank) xb ab concatenates_S3x8192_S3x8192_S6x8192_d0
      (ix2 k l) rfl (ix2 (⟨k.val, h⟩ : Fin 3) l) (fun b => match b with | ⟨0, _⟩ => rfl | ⟨1, _⟩ => rfl)
  · rw [column, feat_agg _ _ k h]
    exact concatenate_pair_apply_right (0 : Fin S6x8192.rank) xb ab concatenates_S3x8192_S3x8192_S6x8192_d0
      (ix2 k l) rfl rfl (ix2 (⟨k.val - 3, by have := k.isLt; omega⟩ : Fin 3) l)
      (fun b hb => match b, hb with
        | ⟨0, _⟩, hb => absurd rfl hb
        | ⟨1, _⟩, _ => rfl)
      (by show (k.val - 3) + 3 = k.val; omega)

theorem act1_apply (k : Fin 16) (l : Fin 8192) :
    act1 xb ab w1t b1c (ix2 k l)
      = relu (dense (column xb ab l) (fun k j => w1t (ix2 j k)) (fun j => b1c (ix2 j (0 : Fin 1)))) k := by
  unfold act1
  rw [shapeCast_self, shapeCast_self]
  refine (reluLayer_apply (J := 16) (K := 6) (L := 8192) (truncf .bf16 w1t bitsLt_bf16_f32)
    (truncf .bf16 (stacked xb ab) bitsLt_bf16_f32) b1c broadcasts_S16x1_S16x8192 k l).trans ?_
  exact congrArg (fun f => relu (dense f (fun k j => w1t (ix2 j k)) (fun j => b1c (ix2 j (0 : Fin 1)))) k)
    (funext fun k' => stacked_apply xb ab k' l)

theorem act2_apply (k : Fin 16) (l : Fin 8192) :
    act2 xb ab w1t b1c w2t b2c (ix2 k l)
      = relu (dense (relu (dense (column xb ab l) (fun k j => w1t (ix2 j k)) (fun j => b1c (ix2 j (0 : Fin 1)))))
          (fun k j => w2t (ix2 j k)) (fun j => b2c (ix2 j (0 : Fin 1)))) k := by
  unfold act2
  rw [shapeCast_self, shapeCast_self]
  refine (reluLayer_apply (J := 16) (K := 16) (L := 8192) (truncf .bf16 w2t bitsLt_bf16_f32)
    (truncf .bf16 (act1 xb ab w1t b1c) bitsLt_bf16_f32) b2c broadcasts_S16x1_S16x8192 k l).trans ?_
  exact congrArg (fun f => relu (dense f (fun k j => w2t (ix2 j k)) (fun j => b2c (ix2 j (0 : Fin 1)))) k)
    (funext fun k' => act1_apply xb ab w1t b1c k' l)

/-- THE TILE at row j, column l: the one-node update of column l's features, at output j, with the weights read
    transposed and the biases read off their columns. -/
theorem tile_apply (j : Fin 3) (l : Fin 8192) :
    k0_pay1 (F := Ideal) xb ab w1t b1c w2t b2c w3t b3c (ix2 j l)
      = node (column xb ab l) (fun k j => w1t (ix2 j k)) (fun j => b1c (ix2 j (0 : Fin 1)))
          (fun k j => w2t (ix2 j k)) (fun j => b2c (ix2 j (0 : Fin 1)))
          (fun k j => w3t (ix2 j k)) (fun j => b3c (ix2 j (0 : Fin 1))) j := by
  rw [payload_eq, shapeCast_self, shapeCast_self]
  refine (layer_apply (J := 3) (K := 16) (L := 8192) (truncf .bf16 w3t bitsLt_bf16_f32)
    (truncf .bf16 (act2 xb ab w1t b1c w2t b2c) bitsLt_bf16_f32) b3c broadcasts_S3x1_S3x8192 j l).trans ?_
  exact congrArg (fun f => dense f (fun k j => w3t (ix2 j k)) (fun j => b3c (ix2 j (0 : Fin 1))) j)
    (funext fun k' => act2_apply xb ab w1t b1c w2t b2c k' l)

end Cert.KernelIdeal.TileNode

end
-- ==== Proof.Blocks.lean ====
/-
  From the tiles to the whole output array.

  The grid has 123 points; point t works on columns t·8192 … t·8192 + 8191 of the padded, transposed node features
  and aggregated features, and on the whole of every weight and bias array. So column l of point t's blocks is
  column t·8192 + l of the arrays, and what the point writes back is the one-node update of that column. The 123
  output blocks tile the [3, 1007616] output array, so after the run the array holds, at (j, n), the one-node update
  of column n, at output j — for every column n, the padding columns included.
-/
import proofs.«111206_j21552145891503_1_alg».proof.Proof.Gen.KernelIdeal.Frame
import proofs.«111206_j21552145891503_1_alg».proof.Proof.TileNode
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.NodeMlp Cert.KernelIdeal.TileNode
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The arrays the region finds, and a point's blocks of them -/

abbrev xT (c : Dev nD) : Vec Ideal S3x1007616 .f32 := V m c main_v15
abbrev aT (c : Dev nD) : Vec Ideal S3x1007616 .f32 := V m c main_v17
abbrev w1T (c : Dev nD) : Vec Ideal S16x6 .f32 := V m c main_v18
abbrev b1C (c : Dev nD) : Vec Ideal S16x1 .f32 := V m c main_v21
abbrev w2T (c : Dev nD) : Vec Ideal S16x16 .f32 := V m c main_v19
abbrev b2C (c : Dev nD) : Vec Ideal S16x1 .f32 := V m c main_v22
abbrev w3T (c : Dev nD) : Vec Ideal S3x16 .f32 := V m c main_v20
abbrev b3C (c : Dev nD) : Vec Ideal S3x1 .f32 := V m c main_v23

abbrev xBlk (c : Dev nD) (t : Fin cfg0.N) : Vec Ideal S3x8192 .f32 := iblk m c 0 t
abbrev aBlk (c : Dev nD) (t : Fin cfg0.N) : Vec Ideal S3x8192 .f32 := iblk m c 1 t
abbrev w1Blk (c : Dev nD) (t : Fin cfg0.N) : Vec Ideal S16x6 .f32 := iblk m c 2 t
abbrev b1Blk (c : Dev nD) (t : Fin cfg0.N) : Vec Ideal S16x1 .f32 := iblk m c 3 t
abbrev w2Blk (c : Dev nD) (t : Fin cfg0.N) : Vec Ideal S16x16 .f32 := iblk m c 4 t
abbrev b2Blk (c : Dev nD) (t : Fin cfg0.N) : Vec Ideal S16x1 .f32 := iblk m c 5 t
abbrev w3Blk (c : Dev nD) (t : Fin cfg0.N) : Vec Ideal S3x16 .f32 := iblk m c 6 t
abbrev b3Blk (c : Dev nD) (t : Fin cfg0.N) : Vec Ideal S3x1 .f32 := iblk m c 7 t

theorem hz : (![0, 0] : Fin 2 → Nat) = fun _ => 0 := funext fun a => by fin_cases a <;> rfl

/-- A grid point is below 123. -/
theorem t_lt (t : Fin cfg0.N) : t.val < 123 := lt_of_lt_of_eq t.isLt N_0

/-- Which block each window is on at point t: the two feature windows and the output window on block (0, t), the
    weight and bias windows on their one block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = t.val :=
  (by decide +kernel : ∀ t : Fin grid0.N, _)

/-- Column t·8192 + l of the padded arrays. -/
abbrev col (t : Fin cfg0.N) (l : Fin 8192) : Fin 1007616 :=
  ⟨t.val * 8192 + l.val, by have := t_lt t; have := l.isLt; omega⟩

theorem xBlk_apply (c : Dev nD) (t : Fin cfg0.N) (k : Fin 3) (l : Fin 8192) :
    xBlk m c t (ix2 k l) = xT m c (ix2 k (col t l)) := by
  show V m c main_v15 (((cfg0.win 0).blk t).view.emb (ix2 k l)) = _
  refine congrArg (V m c main_v15) (funext fun a => Fin.ext ?_)
  obtain ⟨e0, e1, -⟩ := idx_facts t
  match a with
  | ⟨0, _⟩ => show win0_0.index t (0 : Fin 2) * 3 + 1 * k.val = k.val; omega
  | ⟨1, _⟩ => show win0_0.index t (1 : Fin 2) * 8192 + 1 * l.val = t.val * 8192 + l.val; omega

theorem aBlk_apply (c : Dev nD) (t : Fin cfg0.N) (k : Fin 3) (l : Fin 8192) :
    aBlk m c t (ix2 k l) = aT m c (ix2 k (col t l)) := by
  show V m c main_v17 (((cfg0.win 1).blk t).view.emb (ix2 k l)) = _
  refine congrArg (V m c main_v17) (funext fun a => Fin.ext ?_)
  obtain ⟨-, -, e0, e1, -⟩ := idx_facts t
  match a with
  | ⟨0, _⟩ => show win0_1.index t (0 : Fin 2) * 3 + 1 * k.val = k.val; omega
  | ⟨1, _⟩ => show win0_1.index t (1 : Fin 2) * 8192 + 1 * l.val = t.val * 8192 + l.val; omega

theorem w1Blk_apply (c : Dev nD) (t : Fin cfg0.N) (j : Fin 16) (k : Fin 6) :
    w1Blk m c t (ix2 j k) = w1T m c (ix2 j k) := by
  show V m c main_v18 (((cfg0.win 2).blk t).view.emb (ix2 j k)) = _
  refine congrArg (V m c main_v18) (funext fun a => Fin.ext ?_)
  obtain ⟨-, -, -, -, e0, e1, -⟩ := idx_facts t
  match a with
  | ⟨0, _⟩ => show win0_2.index t (0 : Fin 2) * 16 + 1 * j.val = j.val; omega
  | ⟨1, _⟩ => show win0_2.index t (1 : Fin 2) * 6 + 1 * k.val = k.val; omega

theorem b1Blk_apply (c : Dev nD) (t : Fin cfg0.N) (j : Fin 16) :
    b1Blk m c t (ix2 j (0 : Fin 1)) = b1C m c (ix2 j (0 : Fin 1)) := by
  show V m c main_v21 (((cfg0.win 3).blk t).view.emb (ix2 j (0 : Fin 1))) = _
  refine congrArg (V m c main_v21) (funext fun a => Fin.ext ?_)
  obtain ⟨-, -, -, -, -, -, e0, e1, -⟩ := idx_facts t
  match a with
  | ⟨0, _⟩ => show win0_3.index t (0 : Fin 2) * 16 + 1 * j.val = j.val; omega
  | ⟨1, _⟩ => show win0_3.index t (1 : Fin 2) * 1 + 1 * 0 = 0; omega

theorem w2Blk_apply (c : Dev nD) (t : Fin cfg0.N) (j : Fin 16) (k : Fin 16) :
    w2Blk m c t (ix2 j k) = w2T m c (ix2 j k) := by
  show V m c main_v19 (((cfg0.win 4).blk t).view.emb (ix2 j k)) = _
  refine congrArg (V m c main_v19) (funext fun a => Fin.ext ?_)
  obtain ⟨-, -, -, -, -, -, -, -, e0, e1, -⟩ := idx_facts t
  match a with
  | ⟨0, _⟩ => show win0_4.index t (0 : Fin 2) * 16 + 1 * j.val = j.val; omega
  | ⟨1, _⟩ => show win0_4.index t (1 : Fin 2) * 16 + 1 * k.val = k.val; omega

theorem b2Blk_apply (c : Dev nD) (t : Fin cfg0.N) (j : Fin 16) :
    b2Blk m c t (ix2 j (0 : Fin 1)) = b2C m c (ix2 j (0 : Fin 1)) := by
  show V m c main_v22 (((cfg0.win 5).blk t).view.emb (ix2 j (0 : Fin 1))) = _
  refine congrArg (V m c main_v22) (funext fun a => Fin.ext ?_)
  obtain ⟨-, -, -, -, -, -, -, -, -, -, e0, e1, -⟩ := idx_facts t
  match a with
  | ⟨0, _⟩ => show win0_5.index t (0 : Fin 2) * 16 + 1 * j.val = j.val; omega
  | ⟨1, _⟩ => show win0_5.index t (1 : Fin 2) * 1 + 1 * 0 = 0; omega

theorem w3Blk_apply (c : Dev nD) (t : Fin cfg0.N) (j : Fin 3) (k : Fin 16) :
    w3Blk m c t (ix2 j k) = w3T m c (ix2 j k) := by
  show V m c main_v20 (((cfg0.win 6).blk t).view.emb (ix2 j k)) = _
  refine congrArg (V m c main_v20) (funext fun a => Fin.ext ?_)
  obtain ⟨-, -, -, -, -, -, -, -, -, -, -, -, e0, e1, -⟩ := idx_facts t
  match a with
  | ⟨0, _⟩ => show win0_6.index t (0 : Fin 2) * 3 + 1 * j.val = j.val; omega
  | ⟨1, _⟩ => show win0_6.index t (1 : Fin 2) * 16 + 1 * k.val = k.val; omega

theorem b3Blk_apply (c : Dev nD) (t : Fin cfg0.N) (j : Fin 3) :
    b3Blk m c t (ix2 j (0 : Fin 1)) = b3C m c (ix2 j (0 : Fin 1)) := by
  show V m c main_v23 (((cfg0.win 7).blk t).view.emb (ix2 j (0 : Fin 1))) = _
  refine congrArg (V m c main_v23) (funext fun a => Fin.ext ?_)
  obtain ⟨-, -, -, -, -, -, -, -, -, -, -, -, -, -, e0, e1, -⟩ := idx_facts t
  match a with
  | ⟨0, _⟩ => show win0_7.index t (0 : Fin 2) * 3 + 1 * j.val = j.val; omega
  | ⟨1, _⟩ => show win0_7.index t (1 : Fin 2) * 1 + 1 * 0 = 0; omega

/-! ## The output array as one function -/

/-- Column n of the padded arrays as a node's six features. -/
abbrev column (c : Dev nD) (n : Fin 1007616) : Fin 6 → EReal :=
  feat (fun k => xT m c (ix2 k n)) (fun k => aT m c (ix2 k n))

/-- The one-node update of column n of the padded arrays, with the weights read transposed and the biases read off
    their columns. -/
abbrev update (c : Dev nD) (n : Fin 1007616) : Fin 3 → EReal :=
  node (column m c n) (fun k j => w1T m c (ix2 j k)) (fun j => b1C m c (ix2 j (0 : Fin 1)))
    (fun k j => w2T m c (ix2 j k)) (fun j => b2C m c (ix2 j (0 : Fin 1)))
    (fun k j => w3T m c (ix2 j k)) (fun j => b3C m c (ix2 j (0 : Fin 1)))

/-- What the output array ends holding: at (j, n), output j of the update of column n. -/
def G (c : Dev nD) : Vec Ideal S3x1007616 .f32 := fun i => update m c (i 1) (i 0)

theorem G_apply (c : Dev nD) (j : Fin 3) (n : Fin 1007616) : G m c (ix2 j n) = update m c n j := rfl

/-- WHAT POINT t WRITES BACK is block t of that array. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8]
  unfold out0_8
  rw [View.canon_unit_zero hz]
  simp only [View.ld_unit_zero (S := S3x8192) hz, View.ld_unit_zero (S := S16x6) hz, View.ld_unit_zero (S := S16x1) hz,
    View.ld_unit_zero (S := S16x16) hz, View.ld_unit_zero (S := S3x16) hz, View.ld_unit_zero (S := S3x1) hz]
  funext y
  obtain ⟨j, l, rfl⟩ : ∃ (j : Fin 3) (l : Fin 8192), y = ix2 j l := ⟨y 0, y 1, eq_ix2 y⟩
  show k0_pay1 (F := Ideal) (xBlk m c t) (aBlk m c t) (w1Blk m c t) (b1Blk m c t) (w2Blk m c t) (b2Blk m c t) (w3Blk m c t) (b3Blk m c t) (ix2 j l)
    = G m c (((cfg0.win 8).blk t).view.emb (ix2 j l))
  refine (tile_apply (xBlk m c t) (aBlk m c t) (w1Blk m c t) (b1Blk m c t) (w2Blk m c t) (b2Blk m c t) (w3Blk m c t) (b3Blk m c t) j l).trans ?_
  have he : ((cfg0.win 8).blk t).view.emb (ix2 j l) = ix2 j (col t l) := funext fun a => Fin.ext (by
    obtain ⟨-, -, -, -, -, -, -, -, -, -, -, -, -, -, -, -, e0, e1⟩ := idx_facts t
    match a with
    | ⟨0, _⟩ => show win0_8.index t (0 : Fin 2) * 3 + 1 * j.val = j.val; omega
    | ⟨1, _⟩ => show win0_8.index t (1 : Fin 2) * 8192 + 1 * l.val = t.val * 8192 + l.val; omega)
  rw [he, G_apply]
  have hx : (fun k : Fin 3 => xBlk m c t (ix2 k l)) = fun k => xT m c (ix2 k (col t l)) := funext fun k => xBlk_apply m c t k l
  have ha : (fun k : Fin 3 => aBlk m c t (ix2 k l)) = fun k => aT m c (ix2 k (col t l)) := funext fun k => aBlk_apply m c t k l
  have h1 : (fun (k : Fin 6) (j : Fin 16) => w1Blk m c t (ix2 j k)) = fun k j => w1T m c (ix2 j k) := funext fun k => funext fun j => w1Blk_apply m c t j k
  have hb1 : (fun j : Fin 16 => b1Blk m c t (ix2 j (0 : Fin 1))) = fun j => b1C m c (ix2 j (0 : Fin 1)) := funext fun j => b1Blk_apply m c t j
  have h2 : (fun (k : Fin 16) (j : Fin 16) => w2Blk m c t (ix2 j k)) = fun k j => w2T m c (ix2 j k) := funext fun k => funext fun j => w2Blk_apply m c t j k
  have hb2 : (fun j : Fin 16 => b2Blk m c t (ix2 j (0 : Fin 1))) = fun j => b2C m c (ix2 j (0 : Fin 1)) := funext fun j => b2Blk_apply m c t j
  have h3 : (fun (k : Fin 16) (j : Fin 3) => w3Blk m c t (ix2 j k)) = fun k j => w3T m c (ix2 j k) := funext fun k => funext fun j => w3Blk_apply m c t j k
  have hb3 : (fun j : Fin 3 => b3Blk m c t (ix2 j (0 : Fin 1))) = fun j => b3C m c (ix2 j (0 : Fin 1)) := funext fun j => b3Blk_apply m c t j
  show node (feat (fun k => xBlk m c t (ix2 k l)) (fun k => aBlk m c t (ix2 k l)))
      (fun k j => w1Blk m c t (ix2 j k)) (fun j => b1Blk m c t (ix2 j (0 : Fin 1)))
      (fun k j => w2Blk m c t (ix2 j k)) (fun j => b2Blk m c t (ix2 j (0 : Fin 1)))
      (fun k j => w3Blk m c t (ix2 j k)) (fun j => b3Blk m c t (ix2 j (0 : Fin 1))) j
    = node (feat (fun k => xT m c (ix2 k (col t l))) (fun k => aT m c (ix2 k (col t l))))
      (fun k j => w1T m c (ix2 j k)) (fun j => b1C m c (ix2 j (0 : Fin 1)))
      (fun k j => w2T m c (ix2 j k)) (fun j => b2C m c (ix2 j (0 : Fin 1)))
      (fun k j => w3T m c (ix2 j k)) (fun j => b3C m c (ix2 j (0 : Fin 1))) j
  rw [hx, ha, h1, hb1, h2, hb2, h3, hb3]

/-- An index of the output array is in point t's block iff each coordinate is in the block's range on its axis. -/
theorem mem_blk (t : Fin cfg0.N) (i : S3x1007616.Idx) :
    i ∈ ((cfg0.win 8).blk t).view.set ↔ ∀ a : Fin 2, win0_8.index t a * S3x8192.size a ≤ (i a).val ∧ (i a).val < win0_8.index t a * S3x8192.size a + S3x8192.size a := by
  show i ∈ ((View.whole main_v24).slice (win0_8.rect t)).set ↔ _
  rw [View.set_slice_whole, Rect.mem_set_unit]
  exact Iff.rfl

/-- Every index of the output array lies in some point's block: column n in the block of point n / 8192. -/
theorem cover (i : S3x1007616.Idx) :
    ∃ t : Fin cfg0.N, (cfg0.win 8).flush t = true ∧ i ∈ ((cfg0.win 8).blk t).view.set := by
  have h0 : (i 0).val < 3 := (i 0).isLt
  have h1 : (i 1).val < 1007616 := (i 1).isLt
  have hN : cfg0.N = 123 := N_0
  have hlt : (i 1).val / 8192 < cfg0.N := by rw [hN]; omega
  refine ⟨⟨(i 1).val / 8192, hlt⟩, flush0_8 _, ?_⟩
  rw [mem_blk]
  obtain ⟨-, -, -, -, -, -, -, -, -, -, -, -, -, -, -, -, e0, e1⟩ := idx_facts ⟨(i 1).val / 8192, hlt⟩
  have e1' : win0_8.index ⟨(i 1).val / 8192, hlt⟩ (1 : Fin 2) = (i 1).val / 8192 := e1
  intro a
  match a with
  | ⟨0, _⟩ =>
    show win0_8.index ⟨(i 1).val / 8192, hlt⟩ (0 : Fin 2) * 3 ≤ (i 0).val ∧ (i 0).val < win0_8.index ⟨(i 1).val / 8192, hlt⟩ (0 : Fin 2) * 3 + 3
    omega
  | ⟨1, _⟩ =>
    show win0_8.index ⟨(i 1).val / 8192, hlt⟩ (1 : Fin 2) * 8192 ≤ (i 1).val ∧ (i 1).val < win0_8.index ⟨(i 1).val / 8192, hlt⟩ (1 : Fin 2) * 8192 + 8192
    omega

/-- THE OUTPUT ARRAY after the run. -/
theorem final (c : Dev nD) : (dats m 0 c).arrAt 8 cfg0.N = G m c :=
  (dats m 0 c).arrAt_eq_of_cover 8 (G m c) (fun t _ => flushed_eq m c t) cover

end Cert.KernelIdeal.Blocks

end
-- ==== Proof.HostArrays.lean ====
/-
  What the kernel's region finds in its windows' arrays.

  Before the region the host gathers each edge's source-node features and sums them into the edge's target node
  (the aggregated features, one row per node), transposes the node features and the aggregated features so that the
  nodes run along the columns, pads the 1,000,000 columns with 7,616 more to a whole number of tiles, transposes the
  three weight matrices and casts the three bias vectors to columns. Here each of those arrays is written as its
  term of the argument arrays and read at an index: a padded transposed array at (k, n), n below 1,000,000, is the
  original at (n, k); a transposed weight at (j, k) is the weight at (k, j); a bias column at (j, 0) is the bias at j.
-/
import proofs.«111206_j21552145891503_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import proofs.«111206_j21552145891503_1_alg».proof.Proof.LibTile

noncomputable section

namespace Cert.KernelIdeal.HostArrays

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-- The aggregated features: for every edge the features of its source node (first row of the edge list, a negative
    entry counted from the end) are gathered, and added into the row of its target node (second row of the edge
    list), starting from zero. -/
def aggregated (x0 : (⟨S1000000x3, .f32⟩ : BufTy).Contents (Elt F)) (x1 : (⟨S2x26000000, .i32⟩ : BufTy).Contents (Elt F)) :
    (⟨S1000000x3, .f32⟩ : BufTy).Contents (Elt F) :=
  Host.scatterAdd scatter_S1000000x3_S26000000x1_S26000000x3_1_0_0_1
    (broadcastInDim S1000000x3 ![] bcast_S_S1000000x3 (constant S_ .f32 0x00000000#32))
    (broadcastInDim S26000000x1 ![0] bcast_S26000000_S26000000x1_0
      (shapeCast S26000000 (extractStridedSlice S1x26000000 ![1, 0] x1 slices_S2x26000000_S1x26000000_1_0) shapeCasts_S1x26000000_S26000000))
    (Host.gather gather_S1000000x3_S26000000x1_S26000000x3_1_0_n_n_0_1_13 x0
      (broadcastInDim S26000000x1 ![0] bcast_S26000000_S26000000x1_0
        (select
          (cmpi .slt (shapeCast S26000000 (extractStridedSlice S1x26000000 ![0, 0] x1 slices_S2x26000000_S1x26000000_0_0) shapeCasts_S1x26000000_S26000000)
            (broadcastInDim S26000000 ![] bcast_S_S26000000 (constantI S_ 32 0#32)))
          (addi (shapeCast S26000000 (extractStridedSlice S1x26000000 ![0, 0] x1 slices_S2x26000000_S1x26000000_0_0) shapeCasts_S1x26000000_S26000000)
            (broadcastInDim S26000000 ![] bcast_S_S26000000 (constantI S_ 32 1000000#32)))
          (shapeCast S26000000 (extractStridedSlice S1x26000000 ![0, 0] x1 slices_S2x26000000_S1x26000000_0_0) shapeCasts_S1x26000000_S26000000))))

/-- An [N, 3] array transposed and padded on the right to [3, P] columns. -/
abbrev padT (x : (⟨S1000000x3, .f32⟩ : BufTy).Contents (Elt F)) : (⟨S3x1007616, .f32⟩ : BufTy).Contents (Elt F) :=
  pad S3x1007616 ![0, 0] ![0, 7616] ![0, 0] (transpose S3x1000000 [1, 0] x transposes_S1000000x3_S3x1000000_1_0)
    (sitofp .f32 (constantI S_ 32 0#32)) pads_S3x1000000_S3x1007616_000_076160 h_S_

/-- A padded transposed array at (k, n), n a node, is the original at (n, k). -/
theorem padT_apply (x : (⟨S1000000x3, .f32⟩ : BufTy).Contents (Elt F)) (k : Fin 3) (n : Fin 1000000) :
    padT x (ix2 k (⟨n.val, by have := n.isLt; omega⟩ : Fin 1007616)) = x (ix2 n k) := by
  refine (pad_apply_of_inside ![0, 0] ![0, 7616] ![0, 0] (transpose S3x1000000 [1, 0] x transposes_S1000000x3_S3x1000000_1_0)
    (sitofp .f32 (constantI S_ 32 0#32)) pads_S3x1000000_S3x1007616_000_076160 h_S_
    (ix2 k (⟨n.val, by have := n.isLt; omega⟩ : Fin 1007616)) (ix2 k n) (fun a => ?_)).trans
    (transpose_ix2_apply x transposes_S1000000x3_S3x1000000_1_0 k n)
  match a with
  | ⟨0, _⟩ => show k.val = 0 + k.val * (0 + 1); omega
  | ⟨1, _⟩ => show n.val = 0 + n.val * (0 + 1); omega

variable (m : (ℓ : Loc nD τ sig) → Buf (Elt F) ℓ)

/-! ## The arrays as terms of the arguments -/

set_option maxHeartbeats 4000000 in
theorem xT_eq (c : Dev nD) : (V m c main_v15 : S3x1007616.Idx → Elt F .f32) = padT (m ((c : Thread nD τ).loc main_arg0)) := by
  dsimp only [V, V0]
  simp only [hostOps0, hostOps0_1, hostOps0_2, hostOps0_3, hostOps0_4, List.flatten_cons, List.flatten_nil, List.append_nil, List.cons_append, List.nil_append]
  after_results
  rfl

set_option maxHeartbeats 4000000 in
theorem aggT_eq (c : Dev nD) : (V m c main_v17 : S3x1007616.Idx → Elt F .f32)
    = padT (aggregated (m ((c : Thread nD τ).loc main_arg0)) (m ((c : Thread nD τ).loc main_arg1))) := by
  dsimp only [V, V0]
  simp only [hostOps0, hostOps0_1, hostOps0_2, hostOps0_3, hostOps0_4, List.flatten_cons, List.flatten_nil, List.append_nil, List.cons_append, List.nil_append]
  after_results
  rfl

set_option maxHeartbeats 4000000 in
theorem w1T_eq (c : Dev nD) : (V m c main_v18 : S16x6.Idx → Elt F .f32)
    = transpose S16x6 [1, 0] (m ((c : Thread nD τ).loc main_arg5)) transposes_S6x16_S16x6_1_0 := by
  dsimp only [V, V0]
  simp only [hostOps0, hostOps0_1, hostOps0_2, hostOps0_3, hostOps0_4, List.flatten_cons, List.flatten_nil, List.append_nil, List.cons_append, List.nil_append]
  after_results

set_option maxHeartbeats 4000000 in
theorem w2T_eq (c : Dev nD) : (V m c main_v19 : S16x16.Idx → Elt F .f32)
    = transpose S16x16 [1, 0] (m ((c : Thread nD τ).loc main_arg7)) transposes_S16x16_S16x16_1_0 := by
  dsimp only [V, V0]
  simp only [hostOps0, hostOps0_1, hostOps0_2, hostOps0_3, hostOps0_4, List.flatten_cons, List.flatten_nil, List.append_nil, List.cons_append, List.nil_append]
  after_results

set_option maxHeartbeats 4000000 in
theorem w3T_eq (c : Dev nD) : (V m c main_v20 : S3x16.Idx → Elt F .f32)
    = transpose S3x16 [1, 0] (m ((c : Thread nD τ).loc main_arg9)) transposes_S16x3_S3x16_1_0 := by
  dsimp only [V, V0]
  simp only [hostOps0, hostOps0_1, hostOps0_2, hostOps0_3, hostOps0_4, List.flatten_cons, List.flatten_nil, List.append_nil, List.cons_append, List.nil_append]
  after_results

set_option maxHeartbeats 4000000 in
theorem b1C_eq (c : Dev nD) : (V m c main_v21 : S16x1.Idx → Elt F .f32)
    = shapeCast S16x1 (m ((c : Thread nD τ).loc main_arg6)) shapeCasts_S16_S16x1 := by
  dsimp only [V, V0]
  simp only [hostOps0, hostOps0_1, hostOps0_2, hostOps0_3, hostOps0_4, List.flatten_cons, List.flatten_nil, List.append_nil, List.cons_append, List.nil_append]
  after_results
  rfl

set_option maxHeartbeats 4000000 in
theorem b2C_eq (c : Dev nD) : (V m c main_v22 : S16x1.Idx → Elt F .f32)
    = shapeCast S16x1 (m ((c : Thread nD τ).loc main_arg8)) shapeCasts_S16_S16x1 := by
  dsimp only [V, V0]
  simp only [hostOps0, hostOps0_1, hostOps0_2, hostOps0_3, hostOps0_4, List.flatten_cons, List.flatten_nil, List.append_nil, List.cons_append, List.nil_append]
  after_results
  rfl

set_option maxHeartbeats 4000000 in
theorem b3C_eq (c : Dev nD) : (V m c main_v23 : S3x1.Idx → Elt F .f32)
    = shapeCast S3x1 (m ((c : Thread nD τ).loc main_arg10)) shapeCasts_S3_S3x1 := by
  dsimp only [V, V0]
  simp only [hostOps0, hostOps0_1, hostOps0_2, hostOps0_3, hostOps0_4, List.flatten_cons, List.flatten_nil, List.append_nil, List.cons_append, List.nil_append]
  after_results
  rfl

/-! ## The arrays read at an index -/

theorem xT_apply (c : Dev nD) (k : Fin 3) (n : Fin 1000000) :
    (V m c main_v15 : S3x1007616.Idx → Elt F .f32) (ix2 k (⟨n.val, by have := n.isLt; omega⟩ : Fin 1007616))
      = m ((c : Thread nD τ).loc main_arg0) (ix2 n k) := by
  rw [xT_eq]; exact padT_apply _ k n

theorem aggT_apply (c : Dev nD) (k : Fin 3) (n : Fin 1000000) :
    (V m c main_v17 : S3x1007616.Idx → Elt F .f32) (ix2 k (⟨n.val, by have := n.isLt; omega⟩ : Fin 1007616))
      = aggregated (m ((c : Thread nD τ).loc main_arg0)) (m ((c : Thread nD τ).loc main_arg1)) (ix2 n k) := by
  rw [aggT_eq]; exact padT_apply _ k n

theorem w1T_apply (c : Dev nD) (j : Fin 16) (k : Fin 6) :
    (V m c main_v18 : S16x6.Idx → Elt F .f32) (ix2 j k) = m ((c : Thread nD τ).loc main_arg5) (ix2 k j) := by
  rw [w1T_eq]; exact transpose_ix2_apply _ transposes_S6x16_S16x6_1_0 j k

theorem w2T_apply (c : Dev nD) (j : Fin 16) (k : Fin 16) :
    (V m c main_v19 : S16x16.Idx → Elt F .f32) (ix2 j k) = m ((c : Thread nD τ).loc main_arg7) (ix2 k j) := by
  rw [w2T_eq]; exact transpose_ix2_apply _ transposes_S16x16_S16x16_1_0 j k

theorem w3T_apply (c : Dev nD) (j : Fin 3) (k : Fin 16) :
    (V m c main_v20 : S3x16.Idx → Elt F .f32) (ix2 j k) = m ((c : Thread nD τ).loc main_arg9) (ix2 k j) := by
  rw [w3T_eq]; exact transpose_ix2_apply _ transposes_S16x3_S3x16_1_0 j k

theorem b1C_apply (c : Dev nD) (j : Fin 16) :
    (V m c main_v21 : S16x1.Idx → Elt F .f32) (ix2 j (0 : Fin 1)) = m ((c : Thread nD τ).loc main_arg6) (ix1 j) := by
  rw [b1C_eq]; exact Cert.Tile.shapeCast_a_a1_apply _ shapeCasts_S16_S16x1 j 0

theorem b2C_apply (c : Dev nD) (j : Fin 16) :
    (V m c main_v22 : S16x1.Idx → Elt F .f32) (ix2 j (0 : Fin 1)) = m ((c : Thread nD τ).loc main_arg8) (ix1 j) := by
  rw [b2C_eq]; exact Cert.Tile.shapeCast_a_a1_apply _ shapeCasts_S16_S16x1 j 0

theorem b3C_apply (c : Dev nD) (j : Fin 3) :
    (V m c main_v23 : S3x1.Idx → Elt F .f32) (ix2 j (0 : Fin 1)) = m ((c : Thread nD τ).loc main_arg10) (ix1 j) := by
  rw [b3C_eq]; exact Cert.Tile.shapeCast_a_a1_apply _ shapeCasts_S3_S3x1 j 0

end Cert.KernelIdeal.HostArrays

end
-- ==== Proof.KernelRun.lean ====
/-
  The kernel's result as a function of its arguments.

  After the region the host keeps the first 1,000,000 columns of the [3, 1007616] output array and transposes them
  back: the result at (n, j) is the output array at (j, n), the one-node update of column n of the padded arrays at
  output j. For a node n that column holds the node's own features and its aggregated ones, the transposed weights
  at (j, k) hold the weights at (k, j) and the bias columns hold the biases: the result at (n, j) is the one-node
  update of node n's features under the argument weights and biases, at output j.
-/
import proofs.«111206_j21552145891503_1_alg».proof.Proof.Blocks
import proofs.«111206_j21552145891503_1_alg».proof.Proof.HostArrays
import Idealize.ShloMosaic.Lib.StableHlo.Run
import Idealize.ShloMosaic.Lib.ValueLayout

noncomputable section

namespace Cert.KernelIdeal.KernelRun

open Cert.KernelIdeal Cert.KernelIdeal.Gen Cert.NodeMlp Cert.KernelIdeal.Blocks Cert.KernelIdeal.HostArrays
open Idealize.ShloMosaic Idealize.ShloMosaic.TcCoe Idealize.ShloMosaic.ValueIdx Idealize.SL.Sem Idealize.ShloMosaic.StableHlo

/-- The result array as a function of the argument arrays: at (n, j), output j of the update of node n, whose
    features are its row of x and its row of the aggregated array. -/
def resultOf (x0 : (⟨S1000000x3, .f32⟩ : BufTy).Contents (Elt Ideal)) (x1 : (⟨S2x26000000, .i32⟩ : BufTy).Contents (Elt Ideal))
    (x5 : (⟨S6x16, .f32⟩ : BufTy).Contents (Elt Ideal)) (x6 : (⟨S16, .f32⟩ : BufTy).Contents (Elt Ideal))
    (x7 : (⟨S16x16, .f32⟩ : BufTy).Contents (Elt Ideal)) (x8 : (⟨S16, .f32⟩ : BufTy).Contents (Elt Ideal))
    (x9 : (⟨S16x3, .f32⟩ : BufTy).Contents (Elt Ideal)) (x10 : (⟨S3, .f32⟩ : BufTy).Contents (Elt Ideal)) :
    (⟨S1000000x3, .f32⟩ : BufTy).Contents (Elt Ideal) := fun i =>
  node (feat (fun k => x0 (ix2 (i 0) k)) (fun k => aggregated (F := Ideal) x0 x1 (ix2 (i 0) k)))
    (fun k j => x5 (ix2 k j)) (fun j => x6 (ix1 j)) (fun k j => x7 (ix2 k j)) (fun j => x8 (ix1 j))
    (fun k j => x9 (ix2 k j)) (fun j => x10 (ix1 j)) (i 1)

variable (m : (ℓ : Loc nD τ sig) → Buf (Elt Ideal) ℓ) (ρ : Dev nD → PrngReg)

/-- The result array of a run from memory m. -/
abbrev result (c : Dev nD) : (⟨S1000000x3, .f32⟩ : BufTy).Contents (Elt Ideal) :=
  resultOf (m ((c : Thread nD τ).loc main_arg0)) (m ((c : Thread nD τ).loc main_arg1)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- A node's column among the padded columns. -/
abbrev nodeCol (n : Fin 1000000) : Fin 1007616 := ⟨n.val, by have := n.isLt; omega⟩

/-- The update of a node's column is the update of the node under the argument weights and biases. -/
theorem update_node (c : Dev nD) (n : Fin 1000000) (j : Fin 3) :
    update m c (nodeCol n) j = result m c (ix2 n j) := by
  have hx : (fun k : Fin 3 => xT m c (ix2 k (nodeCol n))) = fun k => m ((c : Thread nD τ).loc main_arg0) (ix2 n k) :=
    funext fun k => xT_apply m c k n
  have ha : (fun k : Fin 3 => aT m c (ix2 k (nodeCol n)))
      = fun k => aggregated (F := Ideal) (m ((c : Thread nD τ).loc main_arg0)) (m ((c : Thread nD τ).loc main_arg1)) (ix2 n k) :=
    funext fun k => aggT_apply m c k n
  have h1 : (fun (k : Fin 6) (j : Fin 16) => w1T m c (ix2 j k)) = fun k j => m ((c : Thread nD τ).loc main_arg5) (ix2 k j) :=
    funext fun k => funext fun j => w1T_apply m c j k
  have hb1 : (fun j : Fin 16 => b1C m c (ix2 j (0 : Fin 1))) = fun j => m ((c : Thread nD τ).loc main_arg6) (ix1 j) :=
    funext fun j => b1C_apply m c j
  have h2 : (fun (k : Fin 16) (j : Fin 16) => w2T m c (ix2 j k)) = fun k j => m ((c : Thread nD τ).loc main_arg7) (ix2 k j) :=
    funext fun k => funext fun j => w2T_apply m c j k
  have hb2 : (fun j : Fin 16 => b2C m c (ix2 j (0 : Fin 1))) = fun j => m ((c : Thread nD τ).loc main_arg8) (ix1 j) :=
    funext fun j => b2C_apply m c j
  have h3 : (fun (k : Fin 16) (j : Fin 3) => w3T m c (ix2 j k)) = fun k j => m ((c : Thread nD τ).loc main_arg9) (ix2 k j) :=
    funext fun k => funext fun j => w3T_apply m c j k
  have hb3 : (fun j : Fin 3 => b3C m c (ix2 j (0 : Fin 1))) = fun j => m ((c : Thread nD τ).loc main_arg10) (ix1 j) :=
    funext fun j => b3C_apply m c j
  show node (feat (fun k => xT m c (ix2 k (nodeCol n))) (fun k => aT m c (ix2 k (nodeCol n))))
      (fun k j => w1T m c (ix2 j k)) (fun j => b1C m c (ix2 j (0 : Fin 1)))
      (fun k j => w2T m c (ix2 j k)) (fun j => b2C m c (ix2 j (0 : Fin 1)))
      (fun k j => w3T m c (ix2 j k)) (fun j => b3C m c (ix2 j (0 : Fin 1))) j
    = node (feat (fun k => m ((c : Thread nD τ).loc main_arg0) (ix2 n k))
        (fun k => aggregated (F := Ideal) (m ((c : Thread nD τ).loc main_arg0)) (m ((c : Thread nD τ).loc main_arg1)) (ix2 n k)))
      (fun k j => m ((c : Thread nD τ).loc main_arg5) (ix2 k j)) (fun j => m ((c : Thread nD τ).loc main_arg6) (ix1 j))
      (fun k j => m ((c : Thread nD τ).loc main_arg7) (ix2 k j)) (fun j => m ((c : Thread nD τ).loc main_arg8) (ix1 j))
      (fun k j => m ((c : Thread nD τ).loc main_arg9) (ix2 k j)) (fun j => m ((c : Thread nD τ).loc main_arg10) (ix1 j)) j
  rw [hx, ha, h1, hb1, h2, hb2, h3, hb3]

/-- The first 1,000,000 columns of the output array, transposed back, are the result array. -/
theorem kept_columns (c : Dev nD) :
    transpose S1000000x3 [1, 0] (extractStridedSlice S3x1000000 ![0, 0] (G m c) slices_S3x1007616_S3x1000000_0_0)
      transposes_S3x1000000_S1000000x3_1_0 = result m c := by
  funext i
  obtain ⟨n, j, rfl⟩ : ∃ (n : Fin 1000000) (j : Fin 3), i = ix2 n j := ⟨i 0, i 1, eq_ix2 i⟩
  refine (transpose_ix2_apply _ transposes_S3x1000000_S1000000x3_1_0 n j).trans ?_
  refine (extractStridedSlice_apply ![0, 0] (G m c) slices_S3x1007616_S3x1000000_0_0 (ix2 j n) (ix2 j (nodeCol n))
    (fun a => match a with
      | ⟨0, _⟩ => by show j.val = 0 + j.val; omega
      | ⟨1, _⟩ => by show n.val = 0 + n.val; omega)).trans ?_
  rw [G_apply]
  exact update_node m c n j

/-- What the host operations after the region leave in the result buffer. -/
theorem tail_eq (c : Dev nD) :
    Pipeline.afterTail₀ cfgs (dats m) 0 (V0 m) [hostOps1] c main_v26 = result m c := by
  refine Eq.trans ?_ (kept_columns m c)
  unfold Pipeline.afterTail₀
  show StableHlo.after hostOps1 _ (Proc.devRef .tc main_v26) = _
  after_results
  exact congrArg (fun X => transpose S1000000x3 [1, 0] (extractStridedSlice S3x1000000 ![0, 0] X slices_S3x1007616_S3x1000000_0_0)
      transposes_S3x1000000_S1000000x3_1_0)
    ((Pipeline.withArrays_arr spec0 launch0.win.arr_inj c (V0 m c) (fun w => (dats m 0 c).arrAt w cfg0.N) 8).trans (final m c))

/-- THE KERNEL'S RUN: every weakly fair execution terminates with the result buffer at the result array and the
    arguments unchanged. -/
theorem run : θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v26 (Pipeline.mem_restRefs_of main_v26 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.KernelRun

end
-- ==== Proof.lean ====
/-
  A node update of a message-passing network, computed two ways, is one function of the arguments.

  Both programs first aggregate: for every edge the features of its source node are gathered and added into the row
  of its target node; the two programs do this with the same operations in the same order, so the aggregated array is
  the same term of the arguments on both sides and nothing is asked of what a gather or a scatter-add computes. Then
  each node's own three features and its three aggregated ones go through a three-layer perceptron (6 → 16 → 16 → 3,
  a rectifier after the first two layers). The reference lays the nodes down the rows and multiplies by the weights on
  the right; the kernel lays the nodes along the columns, pads them to 123 tiles of 8192, multiplies by the transposed
  weights on the left tile by tile, and cuts the padding off again. The update acts on each node by itself, so both
  results at (n, j) are the one-node update of node n's six features at output j; the two evaluations differ only in
  the order of the two factors of each product, and multiplication of extended reals is commutative. No input needs to
  be finite for that. The narrowing of the products' operands to a shorter float format is the identity on extended
  reals, and the padding columns, whatever they hold, are never read into a kept column.
-/
import proofs.«111206_j21552145891503_1_alg».proof.Defs
import proofs.«111206_j21552145891503_1_alg».proof.Proof.Gen.Kernel
import proofs.«111206_j21552145891503_1_alg».proof.Proof.Gen.Kernel.Skeleton
import proofs.«111206_j21552145891503_1_alg».proof.Proof.Gen.Kernel.Launch
import proofs.«111206_j21552145891503_1_alg».proof.Proof.Gen.Kernel.Points
import proofs.«111206_j21552145891503_1_alg».proof.Proof.Gen.Kernel.Frame
import proofs.«111206_j21552145891503_1_alg».proof.Proof.Gen.KernelIdeal
import proofs.«111206_j21552145891503_1_alg».proof.Proof.Gen.KernelIdeal.Skeleton
import proofs.«111206_j21552145891503_1_alg».proof.Proof.Gen.KernelIdeal.Launch
import proofs.«111206_j21552145891503_1_alg».proof.Proof.Gen.KernelIdeal.Points
import proofs.«111206_j21552145891503_1_alg».proof.Proof.Gen.KernelIdeal.Frame
import proofs.«111206_j21552145891503_1_alg».proof.Proof.Gen.ReferenceIdeal
import proofs.«111206_j21552145891503_1_alg».proof.Proof.Gen.Pre_finite_inputs
import proofs.«111206_j21552145891503_1_alg».proof.Proof.Gen.ReferenceIdeal.Run
import proofs.«111206_j21552145891503_1_alg».proof.Proof.Gen.ReferenceIdeal.Read
import proofs.«111206_j21552145891503_1_alg».proof.Proof.RefNode
import proofs.«111206_j21552145891503_1_alg».proof.Proof.KernelRun
import Idealize.ShloMosaic.Adequacy
import Idealize.ShloMosaic.Init

noncomputable section

namespace Cert.Proof

open Idealize.ShloMosaic Idealize.ShloMosaic.TcCoe Idealize.ShloMosaic.ValueIdx Idealize.SL.Sem Cert.NodeMlp

/-- The two programs aggregate with the same operations: the kernel's aggregated array and the reference's are one
    term of the node features and the edge list. -/
theorem aggregated_eq (x0 : (⟨Cert.KernelIdeal.S1000000x3, .f32⟩ : BufTy).Contents (Elt Ideal))
    (x1 : (⟨Cert.KernelIdeal.S2x26000000, .i32⟩ : BufTy).Contents (Elt Ideal)) :
    Cert.KernelIdeal.HostArrays.aggregated (F := Ideal) x0 x1 = Cert.ReferenceIdeal.Read.val_main_v13 (F := Ideal) x0 x1 := rfl

/-- The reference's result array is the kernel's, as functions of the arguments: at (n, j) both are the one-node
    update of node n's features at output j. -/
theorem reference_eq (x0 : (⟨Cert.KernelIdeal.S1000000x3, .f32⟩ : BufTy).Contents (Elt Ideal))
    (x1 : (⟨Cert.KernelIdeal.S2x26000000, .i32⟩ : BufTy).Contents (Elt Ideal))
    (x5 : (⟨Cert.KernelIdeal.S6x16, .f32⟩ : BufTy).Contents (Elt Ideal)) (x6 : (⟨Cert.KernelIdeal.S16, .f32⟩ : BufTy).Contents (Elt Ideal))
    (x7 : (⟨Cert.KernelIdeal.S16x16, .f32⟩ : BufTy).Contents (Elt Ideal)) (x8 : (⟨Cert.KernelIdeal.S16, .f32⟩ : BufTy).Contents (Elt Ideal))
    (x9 : (⟨Cert.KernelIdeal.S16x3, .f32⟩ : BufTy).Contents (Elt Ideal)) (x10 : (⟨Cert.KernelIdeal.S3, .f32⟩ : BufTy).Contents (Elt Ideal)) :
    Cert.ReferenceIdeal.Read.val_main_v28 (F := Ideal) x0 x1 x5 x6 x7 x8 x9 x10
      = Cert.KernelIdeal.KernelRun.resultOf x0 x1 x5 x6 x7 x8 x9 x10 := by
  funext i
  obtain ⟨n, j, rfl⟩ : ∃ (n : Fin 1000000) (j : Fin 3), i = ix2 n j := ⟨i 0, i 1, eq_ix2 i⟩
  rw [Cert.ReferenceIdeal.RefNode.result_apply]
  exact congrArg (fun A : (⟨Cert.KernelIdeal.S1000000x3, .f32⟩ : BufTy).Contents (Elt Ideal) =>
      node (feat (fun k => x0 (ix2 n k)) (fun k => A (ix2 n k))) (fun k j => x5 (ix2 k j)) (fun j => x6 (ix1 j))
        (fun k j => x7 (ix2 k j)) (fun j => x8 (ix1 j)) (fun k j => x9 (ix2 k j)) (fun j => x10 (ix1 j)) j)
    (aggregated_eq x0 x1).symm

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result buffer at one array: the kernel's run
    ends at the result array of its arguments, the reference's at its own composed term, which is that array. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v28_eq, h0, h1, h5, h6, h7, h8, h9, h10]
  exact reference_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
